-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S512x1024 .f32) (main_arg1 : FVec F S1024x1024 .f32) (main_arg2 : FVec F S1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S512x1024 : Shape := ⟨2, ![512, 1024]⟩
abbrev S1024x1024 : Shape := ⟨2, ![1024, 1024]⟩
abbrev S1024 : Shape := ⟨1, ![1024]⟩
abbrev S128x1024 : Shape := ⟨2, ![128, 1024]⟩
abbrev S1x1024 : Shape := ⟨2, ![1, 1024]⟩
abbrev S512x64x16 : Shape := ⟨3, ![512, 64, 16]⟩
abbrev S64x512x16 : Shape := ⟨3, ![64, 512, 16]⟩
abbrev S64x512x1 : Shape := ⟨3, ![64, 512, 1]⟩
abbrev S1x512x16 : Shape := ⟨3, ![1, 512, 16]⟩
abbrev S1x512x1 : Shape := ⟨3, ![1, 512, 1]⟩
abbrev S512x16 : Shape := ⟨2, ![512, 16]⟩
abbrev S16x512 : Shape := ⟨2, ![16, 512]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S64x512 : Shape := ⟨2, ![64, 512]⟩
abbrev S512x64 : Shape := ⟨2, ![512, 64]⟩
abbrev S512x1088 : Shape := ⟨2, ![512, 1088]⟩

abbrev nBuf : Space → Nat
  | .hbm => 11
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S512x1024, .f32⟩
  | .hbm, ⟨5, _⟩ => ⟨S512x64x16, .f32⟩
  | .hbm, ⟨6, _⟩ => ⟨S64x512x16, .f32⟩
  | .hbm, ⟨7, _⟩ => ⟨S64x512x1, .f32⟩
  | .hbm, ⟨8, _⟩ => ⟨S64x512, .f32⟩
  | .hbm, ⟨9, _⟩ => ⟨S512x64, .f32⟩
  | .hbm, ⟨10, _⟩ => ⟨S512x1088, .f32⟩
  | .local _ .vmem, ⟨0, _⟩ => ⟨S128x1024, .f32⟩
  | .local _ .vmem, ⟨1, _⟩ => ⟨S128x1024, .f32⟩
  | .local _ .vmem, ⟨2, _⟩ => ⟨S1024x1024, .f32⟩
  | .local _ .vmem, ⟨3, _⟩ => ⟨S1024, .f32⟩
  | .local _ .vmem, ⟨4, _⟩ => ⟨S128x1024, .f32⟩
  | .local _ .vmem, ⟨5, _⟩ => ⟨S128x1024, .f32⟩
  | .local _ .vmem, ⟨6, _⟩ => ⟨S1x512x16, .f32⟩
  | .local _ .vmem, ⟨7, _⟩ => ⟨S1x512x16, .f32⟩
  | .local _ .vmem, ⟨8, _⟩ => ⟨S1x512x1, .f32⟩
  | .local _ .vmem, ⟨9, _⟩ => ⟨S1x512x1, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  transposes_S1024x1024_S1024x1024_1_0 : S1024x1024.Transposes [1, 0] S1024x1024
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  shapeCasts_S512x1024_S512x64x16 : S512x1024.ShapeCasts S512x64x16
  transposes_S512x64x16_S64x512x16_1_0_2 : S512x64x16.Transposes [1, 0, 2] S64x512x16
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  transposes_S512x16_p1_0_S16x512 : S512x16.Transposes [1, 0] S16x512
  slices_S512x16_o0_0_S512x1 : S512x16.Slices ![0, 0] S512x1
  slices_S16x512_o0_0_S1x512 : S16x512.Slices ![0, 0] S1x512
  broadcasts_S512x1_S512x512 : S512x1.Broadcasts S512x512
  broadcasts_S1x512_S512x512 : S1x512.Broadcasts S512x512
  slices_S512x16_o0_1_S512x1 : S512x16.Slices ![0, 1] S512x1
  slices_S16x512_o1_0_S1x512 : S16x512.Slices ![1, 0] S1x512
  slices_S512x16_o0_2_S512x1 : S512x16.Slices ![0, 2] S512x1
  slices_S16x512_o2_0_S1x512 : S16x512.Slices ![2, 0] S1x512
  slices_S512x16_o0_3_S512x1 : S512x16.Slices ![0, 3] S512x1
  slices_S16x512_o3_0_S1x512 : S16x512.Slices ![3, 0] S1x512
  slices_S512x16_o0_4_S512x1 : S512x16.Slices ![0, 4] S512x1
  slices_S16x512_o4_0_S1x512 : S16x512.Slices ![4, 0] S1x512
  slices_S512x16_o0_5_S512x1 : S512x16.Slices ![0, 5] S512x1
  slices_S16x512_o5_0_S1x512 : S16x512.Slices ![5, 0] S1x512
  slices_S512x16_o0_6_S512x1 : S512x16.Slices ![0, 6] S512x1
  slices_S16x512_o6_0_S1x512 : S16x512.Slices ![6, 0] S1x512
  slices_S512x16_o0_7_S512x1 : S512x16.Slices ![0, 7] S512x1
  slices_S16x512_o7_0_S1x512 : S16x512.Slices ![7, 0] S1x512
  slices_S512x16_o0_8_S512x1 : S512x16.Slices ![0, 8] S512x1
  slices_S16x512_o8_0_S1x512 : S16x512.Slices ![8, 0] S1x512
  slices_S512x16_o0_9_S512x1 : S512x16.Slices ![0, 9] S512x1
  slices_S16x512_o9_0_S1x512 : S16x512.Slices ![9, 0] S1x512
  slices_S512x16_o0_10_S512x1 : S512x16.Slices ![0, 10] S512x1
  slices_S16x512_o10_0_S1x512 : S16x512.Slices ![10, 0] S1x512
  slices_S512x16_o0_11_S512x1 : S512x16.Slices ![0, 11] S512x1
  slices_S16x512_o11_0_S1x512 : S16x512.Slices ![11, 0] S1x512
  slices_S512x16_o0_12_S512x1 : S512x16.Slices ![0, 12] S512x1
  slices_S16x512_o12_0_S1x512 : S16x512.Slices ![12, 0] S1x512
  slices_S512x16_o0_13_S512x1 : S512x16.Slices ![0, 13] S512x1
  slices_S16x512_o13_0_S1x512 : S16x512.Slices ![13, 0] S1x512
  slices_S512x16_o0_14_S512x1 : S512x16.Slices ![0, 14] S512x1
  slices_S16x512_o14_0_S1x512 : S16x512.Slices ![14, 0] S1x512
  slices_S512x16_o0_15_S512x1 : S512x16.Slices ![0, 15] S512x1
  slices_S16x512_o15_0_S1x512 : S16x512.Slices ![15, 0] S1x512
  reduces_S512x512_S512 : S512x512.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S64x512x1_S64x512 : S64x512x1.ShapeCasts S64x512
  transposes_S64x512_S512x64_1_0 : S64x512.Transposes [1, 0] S512x64
  concatenates_S512x1024_S512x64_S512x1088_d1 : Shape.Concatenates [S512x1024, S512x64] S512x1088 1
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x1024.size a
  hwx0_0 : ∀ i : grid0.Coords, EltTy.bits .f32 = 32 ∨ (Rect.block (s := S512x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S512x1024.size a
  hwx0_3 : ∀ i : grid0.Coords, EltTy.bits .f32 = 32 ∨ (Rect.block (s := S512x1024) S128x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x16.size a ≤ S64x512x16.size a
  hwx1_0 : ∀ i : grid1.Coords, EltTy.bits .f32 = 32 ∨ (Rect.block (s := S64x512x16) S1x512x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S64x512x1.size a
  hwx1_1 : ∀ i : grid1.Coords, EltTy.bits .f32 = 32 ∨ (Rect.block (s := S64x512x1) S1x512x1.size (cc1_transform_1 i) (hinb1_1 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1x512x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x512x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x64x16 : Shape := ⟨3, ![512, 64, 16]⟩
abbrev S1x512x64x16 : Shape := ⟨4, ![1, 512, 64, 16]⟩
abbrev S512x1x64x16 : Shape := ⟨4, ![512, 1, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x1088 : Shape := ⟨2, ![512, 1088]⟩

abbrev nBuf : Space → Nat
  | .hbm => 22
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S512x1024, .f32⟩
  | .hbm, ⟨5, _⟩ => ⟨S1x1024, .f32⟩
  | .hbm, ⟨6, _⟩ => ⟨S512x1024, .f32⟩
  | .hbm, ⟨7, _⟩ => ⟨S512x1024, .f32⟩
  | .hbm, ⟨8, _⟩ => ⟨S512x64x16, .f32⟩
  | .hbm, ⟨9, _⟩ => ⟨S1x512x64x16, .f32⟩
  | .hbm, ⟨10, _⟩ => ⟨S512x1x64x16, .f32⟩
  | .hbm, ⟨11, _⟩ => ⟨S512x512x64x16, .f32⟩
  | .hbm, ⟨12, _⟩ => ⟨S512x512x64x16, .f32⟩
  | .hbm, ⟨13, _⟩ => ⟨S512x512x64x16, .f32⟩
  | .hbm, ⟨14, _⟩ => ⟨S512x512x64x16, .f32⟩
  | .hbm, ⟨15, _⟩ => ⟨S_, .f32⟩
  | .hbm, ⟨16, _⟩ => ⟨S512x512x64, .f32⟩
  | .hbm, ⟨17, _⟩ => ⟨S512x512x64, .f32⟩
  | .hbm, ⟨18, _⟩ => ⟨S512x512x64, .f32⟩
  | .hbm, ⟨19, _⟩ => ⟨S_, .f32⟩
  | .hbm, ⟨20, _⟩ => ⟨S512x64, .f32⟩
  | .hbm, ⟨21, _⟩ => ⟨S512x1088, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  shapeCasts_S512x1024_S512x64x16 : S512x1024.ShapeCasts S512x64x16
  bcast_S512x64x16_S1x512x64x16_1_2_3 : S512x64x16.BroadcastsInDim S1x512x64x16 (![1, 2, 3] : Fin 3 → Fin S1x512x64x16.rank)
  bcast_S512x64x16_S512x1x64x16_0_2_3 : S512x64x16.BroadcastsInDim S512x1x64x16 (![0, 2, 3] : Fin 3 → Fin S512x1x64x16.rank)
  bcast_S1x512x64x16_S512x512x64x16_0_1_2_3 : S1x512x64x16.BroadcastsInDim S512x512x64x16 (![0, 1, 2, 3] : Fin 4 → Fin S512x512x64x16.rank)
  bcast_S512x1x64x16_S512x512x64x16_0_1_2_3 : S512x1x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d0 : S512x512x64.ReducesTo [0] S512x64
  concatenates_S512x1024_S512x64_S512x1088_d1 : Shape.Concatenates [S512x1024, S512x64] S512x1088 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.LinPay.lean ====
/-
  The linear body's stored value, read at an index.

  The body holds a block x of 128 rows, the whole transposed weight matrix wt and the bias b. It multiplies x by wt
  (the change of float format before the product is the identity on the extended reals, and the product accumulates
  into zero) and adds the bias along rows: entry (p, q) is Σ_k x[p, k] · wt[k, q] + b[q].
-/
import proofs.«112404_j74010876444714_1_alg».proof.Proof.Gen.KernelIdeal.Skeleton
import Idealize.ShloMosaic.PureOps.Ideal.Laws
import Idealize.ShloMosaic.Lib.ValueIdx
import Idealize.ShloMosaic.Lib.ValueLayout

noncomputable section

open scoped BigOperators

namespace Cert.KernelIdeal.LinPay

open Cert.KernelIdeal Cert.KernelIdeal.Gen
open Idealize.ShloMosaic Idealize.ShloMosaic.ValueIdx

/-- Where the product reads its left operand: row of the output index, … -/
theorem lhs_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
/-- … column the contraction index; -/
theorem lhs_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
/-- and its right operand: row the contraction index, … -/
theorem rhs_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
/-- … column of the output index. -/
theorem rhs_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The product into zero at (p, q): Σ_k l[p, k] · r[k, q]. -/
theorem product_apply (l : FVec Ideal S128x1024 .bf16) (r : FVec Ideal S1024x1024 .bf16) (p : Fin 128) (q : Fin 1024) :
    matmul dot_S128x1024_S1024x1024_S128x1024_1_0_0_1_n_n none l r (constant S128x1024 .f32 0x00000000#32) (ix2 p q)
      = ∑ k : Fin 1024, l (ix2 p k) * r (ix2 k q) := by
  refine (Ideal.matmul_constant_zero_apply dot_S128x1024_S1024x1024_S128x1024_1_0_0_1_n_n none l r (ix2 p q)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- The stored block at an index y: Σ_k x[y₀, k] · wt[k, y₁] + b[y₁]. -/
theorem payload_apply (x : FVec Ideal S128x1024 .f32) (wt : FVec Ideal S1024x1024 .f32) (b : FVec Ideal S1024 .f32)
    (y : S128x1024.Idx) :
    k0_pay1 (F := Ideal) x wt b y = (∑ k : Fin 1024, x (ix2 (y 0) k) * wt (ix2 k (y 1))) + b (ix1 (y 1)) := by
  obtain ⟨p, q, rfl⟩ : ∃ (p : Fin 128) (q : Fin 1024), y = ix2 p q := ⟨y 0, y 1, eq_ix2 y⟩
  unfold k0_pay1
  rw [addf_apply, product_apply, shapeCast_self]
  refine congrArg₂ (· + ·) rfl ?_
  exact (broadcastTo_1b_ab_apply _ _ p q).trans (shapeCast_a_1a_apply b _ (0 : Fin 1) q)

end Cert.KernelIdeal.LinPay

end
-- ==== Proof.Spec.lean ====
/-
  The mathematics both programs compute, as functions of arrays over the extended reals.

  A linear layer  m[i, j] = Σ_k x[i, k] · wt[k, j] + b[j]  (wt is the transposed weight matrix);
  the 1024 columns of m are 64 channels of 16 features: feature k of channel c of row i is m[i, 16 c + k];
  for a channel c and rows i, j the L1 distance  d_c(i, j) = Σ_k |m[i, 16c+k] − m[j, 16c+k]|;
  and the similarity  o[i, c] = Σ_j exp (− d_c(i, j)).
  On the extended reals addition is commutative and associative and 0 − d = −d, so the order in which either
  program adds its terms, and a leading zero, do not matter; no finiteness is needed anywhere.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The absolute value as the ideal instance reads it. -/
abbrev eabs (a : EReal) : EReal := max a (-a)

/-- The L1 distance of two rows of 16 features. -/
def l1 (u v : Fin 16 → EReal) : EReal := ∑ k : Fin 16, eabs (u k - v k)

/-- Sixteen terms added one after the other onto zero are their sum. -/
theorem chain_eq_sum (f : Fin 16 → EReal) :
    0 + f 0 + f 1 + f 2 + f 3 + f 4 + f 5 + f 6 + f 7 + f 8 + f 9 + f 10 + f 11 + f 12 + f 13 + f 14 + f 15
      = ∑ k : Fin 16, f k := by
  simp only [Fin.sum_univ_castSucc, Fin.sum_univ_zero]
  rfl

/-- The linear layer over the transposed weights: m[i, j] = Σ_k x[i, k] · wt[k, j] + b[j]. -/
def lin (x : (⟨2, ![512, 1024]⟩ : Shape).Idx → EReal) (wt : (⟨2, ![1024, 1024]⟩ : Shape).Idx → EReal)
    (b : (⟨1, ![1024]⟩ : Shape).Idx → EReal) : (⟨2, ![512, 1024]⟩ : Shape).Idx → EReal :=
  fun i => (∑ k : Fin 1024, x (ix2 (i 0) k) * wt (ix2 k (i 1))) + b (ix1 (i 1))

/-- Column 16 c + k of the projected matrix: feature k of channel c. -/
abbrev col (c : Fin 64) (k : Fin 16) : Fin 1024 := ⟨16 * c.val + k.val, by omega⟩

/-- The 16 features of channel c of row i. -/
def feat (M : (⟨2, ![512, 1024]⟩ : Shape).Idx → EReal) (c : Fin 64) (i : Fin 512) : Fin 16 → EReal :=
  fun k => M (ix2 i (col c k))

/-- o[i, c] = Σ_j exp (− Σ_k |m[i, 16c+k] − m[j, 16c+k]|). -/
def sim (M : (⟨2, ![512, 1024]⟩ : Shape).Idx → EReal) : (⟨2, ![512, 64]⟩ : Shape).Idx → EReal :=
  fun i => ∑ j : Fin 512, Ideal.exp (-(l1 (feat M (i 1) (i 0)) (feat M (i 1) j)))

/-- The same over the matrix laid out channel-major, A[c, i, k] = m[i, 16c+k], with a trailing unit axis on the result. -/
def pair (A : (⟨3, ![64, 512, 16]⟩ : Shape).Idx → EReal) : (⟨3, ![64, 512, 1]⟩ : Shape).Idx → EReal :=
  fun i => ∑ j : Fin 512, Ideal.exp (-(l1 (fun k => A (ix3 (i 0) (i 1) k)) (fun k => A (ix3 (i 0) j k))))

/-- One channel: a [1, 512, 16] slab to its [1, 512, 1] column of similarities. -/
def pairSlab (x : (⟨3, ![1, 512, 16]⟩ : Shape).Idx → EReal) : (⟨3, ![1, 512, 1]⟩ : Shape).Idx → EReal :=
  fun y => ∑ j : Fin 512, Ideal.exp (-(l1 (fun k => x (ix3 0 (y 1) k)) (fun k => x (ix3 0 j k))))

end Cert.Spec

end
-- ==== Proof.LinVal.lean ====
/-
  The first region's result array, whatever the buffers hold when the region is entered.

  Point t of the grid of 4 takes rows 128 t … 128 t + 127 of x, all of wt and all of b, and writes back the same rows of
  the result; what it writes is the linear layer restricted to those rows, and the four blocks of rows fill the
  array. So the array ends holding the linear layer of the entry contents.
-/
import proofs.«112404_j74010876444714_1_alg».proof.Proof.Gen.KernelIdeal.Frame
import proofs.«112404_j74010876444714_1_alg».proof.Proof.LinPay
import proofs.«112404_j74010876444714_1_alg».proof.Proof.Spec
import Idealize.ShloMosaic.Lib.Pipeline.Value

set_option maxRecDepth 16384

noncomputable section

open scoped BigOperators

namespace Cert.KernelIdeal.LinVal

open Cert.KernelIdeal Cert.KernelIdeal.Gen
open Idealize.ShloMosaic Idealize.ShloMosaic.TcCoe Idealize.SL.Sem Idealize.ShloMosaic.ValueIdx Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block index maps over the grid: x and the result move down one block of rows per point, wt and b stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the linear layer of the entry contents. -/
theorem flushed_eq (c : Dev nD) (t : Fin cfg0.N) :
    (dat0 V c).flushed 3 t
      = ((cfg0.win 3).blk t).view.read (Elt Ideal) (lin (V c main_arg0) (V c main_v0) (V c main_arg2)) := by
  show (cfg0.win 3).cut (grid0.coords t) ((dat0 V c).after 3 t) = _
  rw [after0_3]
  unfold out0_3
  rw [View.canon_unit_zero hz2]
  simp only [View.ld_unit_zero (S := S128x1024) hz2, View.ld_unit_zero (S := S1024x1024) hz2, View.ld_unit_zero (S := S1024) hz1]
  obtain ⟨e00, e01, e10, e11, e20, e30, e31⟩ := idx_facts t
  funext y
  show k0_pay1 (F := Ideal) (iblk0 V c 0 t) (iblk0 V c 1 t) (iblk0 V c 2 t) y
    = lin (V c main_arg0) (V c main_v0) (V c main_arg2) (((cfg0.win 3).blk t).view.emb y)
  refine (LinPay.payload_apply (iblk0 V c 0 t) (iblk0 V c 1 t) (iblk0 V c 2 t) y).trans ?_
  unfold lin
  refine congrArg₂ (· + ·) (Finset.sum_congr rfl fun k _ => congrArg₂ (· * ·) ?_ ?_) ?_
  · show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ => show win0_0.index t (0 : Fin 2) * 128 + 1 * (y 0).val = win0_3.index t (0 : Fin 2) * 128 + 1 * (y 0).val; rw [e00, e30]
    | ⟨1, _⟩ => show win0_0.index t (1 : Fin 2) * 1024 + 1 * k.val = k.val; rw [e01]; omega
  · show V c main_v0 (((cfg0.win 1).blk t).view.emb (ix2 k (y 1))) = V c main_v0 (ix2 k ((((cfg0.win 3).blk t).view.emb y) 1))
    refine congrArg (V c main_v0) (funext fun a => Fin.ext ?_)
    match a with
    | ⟨0, _⟩ => show win0_1.index t (0 : Fin 2) * 1024 + 1 * k.val = k.val; rw [e10]; omega
    | ⟨1, _⟩ => show win0_1.index t (1 : Fin 2) * 1024 + 1 * (y 1).val = win0_3.index t (1 : Fin 2) * 1024 + 1 * (y 1).val; rw [e11, e31]
  · show V c main_arg2 (((cfg0.win 2).blk t).view.emb (ix1 (y 1))) = V c main_arg2 (ix1 ((((cfg0.win 3).blk t).view.emb y) 1))
    refine congrArg (V c main_arg2) (funext fun a => Fin.ext ?_)
    match a with
    | ⟨0, _⟩ => show win0_2.index t (0 : Fin 1) * 1024 + 1 * (y 1).val = win0_3.index t (1 : Fin 2) * 1024 + 1 * (y 1).val; rw [e20, e31]

/-- An index of the result array is in point t's block iff each coordinate is in the block's range on its axis. -/
theorem mem_blk (t : Fin cfg0.N) (i : S512x1024.Idx) :
    i ∈ ((cfg0.win 3).blk t).view.set ↔ ∀ a : Fin 2, win0_3.index t a * S128x1024.size a ≤ (i a).val ∧ (i a).val < win0_3.index t a * S128x1024.size a + S128x1024.size a := by
  show i ∈ ((View.whole main_v1).slice (win0_3.rect t)).set ↔ _
  rw [View.set_slice_whole, Rect.mem_set_unit]
  exact Iff.rfl

/-- Every row of the result lies in the block of the point its row number divided by 128 names. -/
theorem cover (i : S512x1024.Idx) : ∃ t : Fin cfg0.N, (cfg0.win 3).flush t = true ∧ i ∈ ((cfg0.win 3).blk t).view.set := by
  have hi0 : (i 0).val < 512 := (i 0).isLt
  have hi1 : (i 1).val < 1024 := (i 1).isLt
  have hN : cfg0.N = 4 := N_0
  let t : Fin cfg0.N := ⟨(i 0).val / 128, by rw [hN]; omega⟩
  obtain ⟨e00, e01, e10, e11, e20, e30, e31⟩ := idx_facts t
  refine ⟨t, flush0_3 t, ?_⟩
  rw [mem_blk]
  intro a
  match a with
  | ⟨0, _⟩ =>
    show win0_3.index t (0 : Fin 2) * 128 ≤ (i 0).val ∧ (i 0).val < win0_3.index t (0 : Fin 2) * 128 + 128
    rw [e30]; show (i 0).val / 128 * 128 ≤ (i 0).val ∧ (i 0).val < (i 0).val / 128 * 128 + 128; omega
  | ⟨1, _⟩ =>
    show win0_3.index t (1 : Fin 2) * 1024 ≤ (i 1).val ∧ (i 1).val < win0_3.index t (1 : Fin 2) * 1024 + 1024
    rw [e31]; omega

/-- The result array after the region: the linear layer of the entry contents. -/
theorem final (c : Dev nD) :
    (dat0 V c).arrAt 3 cfg0.N = lin (V c main_arg0) (V c main_v0) (V c main_arg2) :=
  (dat0 V c).arrAt_eq_of_cover 3 (lin (V c main_arg0) (V c main_v0) (V c main_arg2)) (fun t _ => flushed_eq V c t) cover

end Cert.KernelIdeal.LinVal

end
-- ==== Proof.ColumnForms.lean ====
/-
  Three layout operations read at an index given by coordinates, for shapes with a trailing unit axis:
  a column [a, 1] broadcast along rows to [a, b]; a vector [a] cast to a column [a, 1]; and the column k of a
  matrix cut out as [a, 1]. Each is the operand at the evident index.
-/
import Idealize.ShloMosaic.Lib.ValueIdx
import Idealize.ShloMosaic.Lib.ValueLayout
import Idealize.ShloMosaic.Lib.Pipeline.Value

namespace Cert.ColumnForms

open Idealize.ShloMosaic Idealize.ShloMosaic.ValueIdx

variable {α : Type}

/-- A column [a, 1] broadcast to [a, b] reads, at (p, q), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to [1, a, 1] reads, at (u, i, z), the column at (i, z). (The library's form at general b.) -/
theorem shapeCast_a1_1a1_apply {a : ℕ} (x : (⟨2, ![a, 1]⟩ : Shape).Idx → α) (h : (⟨2, ![a, 1]⟩ : Shape).ShapeCasts ⟨3, ![1, a, 1]⟩)
    (u : Fin 1) (i : Fin a) (z : Fin 1) : shapeCast ⟨3, ![1, a, 1]⟩ x h (ix3 u i z) = x (ix2 i z) :=
  shapeCast_ab_1ab_apply x h u i z

end Cert.ColumnForms
-- ==== Proof.PairPay.lean ====
/-
  The pairwise body's stored value, read at an index.

  The body holds one channel's slab x : [1, 512, 16]. It forms v = x without its unit axis and vᵀ, and for each
  feature k the 512 × 512 matrix |v[i, k] − vᵀ[k, j]| (column k of v broadcast along rows, row k of vᵀ along columns),
  adds the sixteen matrices one after the other onto zero, takes exp (0 − ·) and sums each row. So row i of the
  stored column is Σ_j exp (−Σ_k |x[0, i, k] − x[0, j, k]|).
-/
import proofs.«112404_j74010876444714_1_alg».proof.Proof.Gen.KernelIdeal.Skeleton
import proofs.«112404_j74010876444714_1_alg».proof.Proof.Spec
import proofs.«112404_j74010876444714_1_alg».proof.Proof.ColumnForms
import Idealize.ShloMosaic.PureOps.Ideal.Laws
import Idealize.ShloMosaic.Lib.ValueIdx
import Idealize.ShloMosaic.Lib.ValueLayout

noncomputable section

open scoped BigOperators

namespace Cert.KernelIdeal.PairPay

open Cert.KernelIdeal Cert.KernelIdeal.Gen
open Idealize.ShloMosaic Idealize.ShloMosaic.ValueIdx Cert.ColumnForms Cert.Spec

/-- exp of a vector at an index. -/
theorem exp_apply {s : Shape} {φ : FTy} (a : FVec Ideal s φ) (i : s.Idx) : exp a i = Ideal.exp (a i) := rfl
/-- |·| of a vector at an index. -/
theorem absf_apply {s : Shape} {φ : FTy} (a : FVec Ideal s φ) (i : s.Idx) : absf a i = eabs (a i) := rfl
/-- The scalar zero the body splats. -/
theorem scalar_zero : (Scalar.ofBits .f32 0x00000000#32 : Ideal .f32) = 0 := Ideal.ofBits_zero_f32

/-- The slab without its unit axis, at (i, k). -/
theorem rows_apply (x : FVec Ideal S1x512x16 .f32) (i : Fin 512) (k : Fin 16) :
    k1_pay2 (F := Ideal) x (ix2 i k) = x (ix3 (0 : Fin 1) i k) := by
  unfold k1_pay2
  exact shapeCast_1ab_ab_apply x _ i k

/-- A row sum of a 512 × 512 matrix from the additive neutral, at row i. -/
theorem rowsum_apply (v : FVec Ideal S512x512 .f32) (h : S512x512.Reduces [1] S512) (hφ : FKind.Formats .f32)
    (hacc : (0x00000000#32 : BitVec 32) = FKind.add.neutral .f32 hφ) (i : Fin 512) :
    multiReduction .add [1] S512 v 0x00000000#32 h hφ hacc (ix1 i) = ∑ j : Fin 512, v (ix2 i j) :=
  (Ideal.multiReduction_add_single v _ h hφ hacc (ix1 i)).trans
    (Finset.sum_congr rfl fun k _ => congrArg v (funext fun a => by
      match a with
      | ⟨0, _⟩ => rfl
      | ⟨1, _⟩ => rfl))

/-- Feature o's matrix at (i, j): |x[0, i, o] − x[0, j, o]|. -/
theorem term_apply (x : FVec Ideal S1x512x16 .f32) (o : Nat) (ho : o < 16)
    (hc : S512x16.Slices ![0, o] S512x1) (hr : S16x512.Slices ![o, 0] S1x512)
    (hb1 : S512x1.Broadcasts S512x512) (hb2 : S1x512.Broadcasts S512x512) (i j : Fin 512) :
    absf (subf (broadcastTo S512x512 (extractStridedSlice S512x1 ![0, o] (k1_pay2 (F := Ideal) x) hc) hb1)
        (broadcastTo S512x512 (extractStridedSlice S1x512 ![o, 0] (k1_pay3 (F := Ideal) x) hr) hb2)) (ix2 i j)
      = eabs (x (ix3 (0 : Fin 1) i ⟨o, ho⟩) - x (ix3 (0 : Fin 1) j ⟨o, ho⟩)) := by
  have e1 : broadcastTo S512x512 (extractStridedSlice S512x1 ![0, o] (k1_pay2 (F := Ideal) x) hc) hb1 (ix2 i j)
      = x (ix3 (0 : Fin 1) i ⟨o, ho⟩) :=
    ((broadcastTo_a1_ab_apply _ hb1 i j).trans (slice2_axis1_apply o (k1_pay2 (F := Ideal) x) hc i (0 : Fin 1) ⟨o, ho⟩ rfl)).trans
      (rows_apply x i ⟨o, ho⟩)
  have e2 : broadcastTo S512x512 (extractStridedSlice S1x512 ![o, 0] (k1_pay3 (F := Ideal) x) hr) hb2 (ix2 i j)
      = x (ix3 (0 : Fin 1) j ⟨o, ho⟩) := by
    refine ((broadcastTo_1b_ab_apply _ hb2 i j).trans (slice2_axis0_apply o (k1_pay3 (F := Ideal) x) hr (0 : Fin 1) j ⟨o, ho⟩ rfl)).trans ?_
    unfold k1_pay3
    exact (transpose_ix2_apply (k1_pay2 (F := Ideal) x) _ ⟨o, ho⟩ j).trans (rows_apply x j ⟨o, ho⟩)
  rw [absf_apply, subf_apply, e1, e2]

/-- The sixteen terms at (i, j), as a function of the feature. -/
def T (x : FVec Ideal S1x512x16 .f32) (i j : Fin 512) : Fin 16 → EReal :=
  fun k => eabs (x (ix3 (0 : Fin 1) i k) - x (ix3 (0 : Fin 1) j k))

/-- The first seven added onto zero. -/
theorem first_apply (x : FVec Ideal S1x512x16 .f32) (i j : Fin 512) :
    k1_pay4 (F := Ideal) x (ix2 i j) = 0 + T x i j 0 + T x i j 1 + T x i j 2 + T x i j 3 + T x i j 4 + T x i j 5 + T x i j 6 := by
  unfold k1_pay4
  simp only [addf_apply, broadcast_apply, scalar_zero,
    term_apply x 0 (by decide), term_apply x 1 (by decide), term_apply x 2 (by decide), term_apply x 3 (by decide),
    term_apply x 4 (by decide), term_apply x 5 (by decide), term_apply x 6 (by decide)]
  rfl

/-- The next eight added onto those. -/
theorem middle_apply (x : FVec Ideal S1x512x16 .f32) (i j : Fin 512) :
    k1_pay7 (F := Ideal) (k1_pay2 x) (k1_pay3 x) (k1_pay4 x) (k1_pay5 x) (k1_pay6 x) (ix2 i j)
      = k1_pay4 (F := Ideal) x (ix2 i j) + T x i j 7 + T x i j 8 + T x i j 9 + T x i j 10 + T x i j 11 + T x i j 12 + T x i j 13
        + T x i j 14 := by
  unfold k1_pay7 k1_pay5 k1_pay6
  simp only [addf_apply,
    term_apply x 7 (by decide), term_apply x 8 (by decide), term_apply x 9 (by decide), term_apply x 10 (by decide),
    term_apply x 11 (by decide), term_apply x 12 (by decide), term_apply x 13 (by decide), term_apply x 14 (by decide)]
  rfl

/-- The last one. -/
theorem last_apply (x : FVec Ideal S1x512x16 .f32) (i j : Fin 512) :
    k1_pay8 (F := Ideal) (k1_pay2 x) (k1_pay3 x) (ix2 i j) = T x i j 15 := by
  unfold k1_pay8
  exact term_apply x 15 (by decide) _ _ _ _ i j

/-- The stored column at (u, i, z): the specification's slab function. -/
theorem payload_apply (x : FVec Ideal S1x512x16 .f32) (u : Fin 1) (i : Fin 512) (z : Fin 1) :
    k1_pay1 (F := Ideal) (k1_pay7 (k1_pay2 x) (k1_pay3 x) (k1_pay4 x) (k1_pay5 x) (k1_pay6 x)) (k1_pay8 (k1_pay2 x) (k1_pay3 x)) (ix3 u i z)
      = pairSlab x (ix3 u i z) := by
  unfold k1_pay1
  refine (shapeCast_ab_1ab_apply _ _ u i z).trans ?_
  refine (shapeCast_a_a1_apply _ _ i z).trans ?_
  refine (rowsum_apply _ _ _ _ i).trans ?_
  unfold pairSlab
  refine Finset.sum_congr rfl fun j _ => ?_
  rw [exp_apply, subf_apply, broadcast_apply, scalar_zero, zero_sub, addf_apply, middle_apply, last_apply, first_apply,
    chain_eq_sum (T x i j)]
  rfl

/-- The same at an index of the stored column given whole. -/
theorem payload_at (x : FVec Ideal S1x512x16 .f32) (y : S1x512x1.Idx) :
    k1_pay1 (F := Ideal) (k1_pay7 (k1_pay2 x) (k1_pay3 x) (k1_pay4 x) (k1_pay5 x) (k1_pay6 x)) (k1_pay8 (k1_pay2 x) (k1_pay3 x)) y
      = pairSlab x y := by
  obtain ⟨u, i, z, rfl⟩ : ∃ (u : Fin 1) (i : Fin 512) (z : Fin 1), y = ix3 u i z := ⟨y 0, y 1, y 2, eq_ix3 y⟩
  exact payload_apply x u i z

end Cert.KernelIdeal.PairPay

end
-- ==== Proof.PairVal.lean ====
/-
  The second region's result array, whatever the buffers hold when the region is entered.

  Point t of the grid of 64 takes channel t of the channel-major array A : [64, 512, 16] as a slab [1, 512, 16] and
  writes back channel t of the result [64, 512, 1]; what it writes is that channel's column of similarities, and the
  64 channels fill the array. So the array ends holding the pairwise function of the entry contents.
-/
import proofs.«112404_j74010876444714_1_alg».proof.Proof.Gen.KernelIdeal.Frame
import proofs.«112404_j74010876444714_1_alg».proof.Proof.PairPay
import proofs.«112404_j74010876444714_1_alg».proof.Proof.Spec
import Idealize.ShloMosaic.Lib.Pipeline.Value

set_option maxRecDepth 16384

noncomputable section

open scoped BigOperators

namespace Cert.KernelIdeal.PairVal

open Cert.KernelIdeal Cert.KernelIdeal.Gen
open Idealize.ShloMosaic Idealize.ShloMosaic.TcCoe Idealize.SL.Sem Idealize.ShloMosaic.ValueIdx Cert.Spec
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The block index maps over the grid: both windows move one channel per point. -/
theorem idx_facts : ∀ t : Fin cfg1.N, win1_0.index t (0 : Fin 3) = t.val ∧ win1_0.index t (1 : Fin 3) = 0
    ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- What point t writes back is channel t of the pairwise function of the entry contents. -/
theorem flushed_eq (c : Dev nD) (t : Fin cfg1.N) :
    (dat1 V c).flushed 1 t = ((cfg1.win 1).blk t).view.read (Elt Ideal) (pair (V c main_v3)) := by
  show (cfg1.win 1).cut (grid1.coords t) ((dat1 V c).after 1 t) = _
  rw [after1_1]
  unfold out1_1
  rw [View.canon_unit_zero hz3]
  simp only [View.ld_unit_zero (S := S1x512x16) hz3]
  obtain ⟨e00, e01, e02, e10, e11, e12⟩ := idx_facts t
  funext y
  show k1_pay1 (F := Ideal) (k1_pay7 (k1_pay2 (iblk1 V c 0 t)) (k1_pay3 (iblk1 V c 0 t)) (k1_pay4 (iblk1 V c 0 t)) (k1_pay5 (iblk1 V c 0 t)) (k1_pay6 (iblk1 V c 0 t))) (k1_pay8 (k1_pay2 (iblk1 V c 0 t)) (k1_pay3 (iblk1 V c 0 t))) y
    = pair (V c main_v3) (((cfg1.win 1).blk t).view.emb y)
  refine (PairPay.payload_at (iblk1 V c 0 t) y).trans ?_
  unfold pairSlab pair
  have hrow : ∀ (r : Fin 512) (k : Fin 16),
      (iblk1 V c 0 t : Vec Ideal S1x512x16 .f32) (ix3 (0 : Fin 1) r k)
        = V c main_v3 (ix3 ((((cfg1.win 1).blk t).view.emb y) 0) r k) := fun r k => by
    show V c main_v3 (((cfg1.win 0).blk t).view.emb (ix3 (0 : Fin 1) r k)) = _
    refine congrArg (V c main_v3) (funext fun a => Fin.ext ?_)
    match a with
    | ⟨0, _⟩ =>
      show win1_0.index t (0 : Fin 3) * 1 + 1 * 0 = win1_1.index t (0 : Fin 3) * 1 + 1 * (y 0).val
      have : (y 0).val < 1 := (y 0).isLt
      rw [e00, e10]; omega
    | ⟨1, _⟩ => show win1_0.index t (1 : Fin 3) * 512 + 1 * r.val = r.val; rw [e01]; omega
    | ⟨2, _⟩ => show win1_0.index t (2 : Fin 3) * 16 + 1 * k.val = k.val; rw [e02]; omega
  have hy1 : ((((cfg1.win 1).blk t).view.emb y) 1) = y 1 := Fin.ext (by
    show win1_1.index t (1 : Fin 3) * 512 + 1 * (y 1).val = (y 1).val; rw [e11]; omega)
  refine Finset.sum_congr rfl fun j _ => congrArg Ideal.exp (congrArg Neg.neg ?_)
  refine congrArg₂ l1 (funext fun k => ?_) (funext fun k => ?_)
  · exact (hrow (y 1) k).trans
      (congrArg (fun r => V c main_v3 (ix3 ((((cfg1.win 1).blk t).view.emb y) 0) r k)) hy1.symm)
  · exact hrow j k

/-- An index of the result array is in point t's block iff each coordinate is in the block's range on its axis. -/
theorem mem_blk (t : Fin cfg1.N) (i : S64x512x1.Idx) :
    i ∈ ((cfg1.win 1).blk t).view.set ↔ ∀ a : Fin 3, win1_1.index t a * S1x512x1.size a ≤ (i a).val ∧ (i a).val < win1_1.index t a * S1x512x1.size a + S1x512x1.size a := by
  show i ∈ ((View.whole main_v4).slice (win1_1.rect t)).set ↔ _
  rw [View.set_slice_whole, Rect.mem_set_unit]
  exact Iff.rfl

/-- Every entry of the result lies in the block of the point its channel names. -/
theorem cover (i : S64x512x1.Idx) : ∃ t : Fin cfg1.N, (cfg1.win 1).flush t = true ∧ i ∈ ((cfg1.win 1).blk t).view.set := by
  have hi0 : (i 0).val < 64 := (i 0).isLt
  have hi1 : (i 1).val < 512 := (i 1).isLt
  have hi2 : (i 2).val < 1 := (i 2).isLt
  have hN : cfg1.N = 64 := N_1
  let t : Fin cfg1.N := ⟨(i 0).val, by rw [hN]; omega⟩
  obtain ⟨e00, e01, e02, e10, e11, e12⟩ := idx_facts t
  refine ⟨t, flush1_1 t, ?_⟩
  rw [mem_blk]
  intro a
  match a with
  | ⟨0, _⟩ =>
    show win1_1.index t (0 : Fin 3) * 1 ≤ (i 0).val ∧ (i 0).val < win1_1.index t (0 : Fin 3) * 1 + 1
    rw [e10]; show (i 0).val * 1 ≤ (i 0).val ∧ (i 0).val < (i 0).val * 1 + 1; omega
  | ⟨1, _⟩ =>
    show win1_1.index t (1 : Fin 3) * 512 ≤ (i 1).val ∧ (i 1).val < win1_1.index t (1 : Fin 3) * 512 + 512
    rw [e11]; omega
  | ⟨2, _⟩ =>
    show win1_1.index t (2 : Fin 3) * 1 ≤ (i 2).val ∧ (i 2).val < win1_1.index t (2 : Fin 3) * 1 + 1
    rw [e12]; omega

/-- The result array after the region: the pairwise function of the entry contents. -/
theorem final (c : Dev nD) : (dat1 V c).arrAt 1 cfg1.N = pair (V c main_v3) :=
  (dat1 V c).arrAt_eq_of_cover 1 (pair (V c main_v3)) (fun t _ => flushed_eq V c t) cover

end Cert.KernelIdeal.PairVal

end
-- ==== Proof.Relayout.lean ====
/-
  The host operations between and after the two regions only move entries around.

  Between the regions the projected matrix M : [512, 1024] is viewed as [512, 64, 16] and its first two axes are
  swapped: A[c, i, k] = M[i, 16 c + k]. After the second region its result [64, 512, 1] loses the unit axis and is
  transposed to [512, 64]. Read at (i, c), the whole chain applied to the pairwise function of A is the
  specification's similarity of M.
-/
import proofs.«112404_j74010876444714_1_alg».proof.Proof.Spec
import Idealize.ShloMosaic.Lib.ValueIdx
import Idealize.ShloMosaic.Lib.ValueLayout
import Idealize.ShloMosaic.Lib.Pipeline.Value

noncomputable section

open scoped BigOperators

namespace Cert.Relayout

open Idealize.ShloMosaic Idealize.ShloMosaic.ValueIdx Cert.Spec

/-- The channel-major view of the projected matrix at (c, r, k) is M[r, 16 c + k]. -/
theorem channelMajor_apply (M : (⟨2, ![512, 1024]⟩ : Shape).Idx → EReal)
    (h1 : (⟨2, ![512, 1024]⟩ : Shape).ShapeCasts ⟨3, ![512, 64, 16]⟩)
    (h2 : (⟨3, ![512, 64, 16]⟩ : Shape).Transposes [1, 0, 2] ⟨3, ![64, 512, 16]⟩)
    (c : Fin 64) (r : Fin 512) (k : Fin 16) :
    transpose ⟨3, ![64, 512, 16]⟩ [1, 0, 2] (shapeCast ⟨3, ![512, 64, 16]⟩ M h1) h2 (ix3 c r k) = M (ix2 r (col c k)) :=
  (transpose_apply [1, 0, 2] _ h2 (ix3 c r k) (ix3 r c k) (fun b => match b with
    | ⟨0, _⟩ => rfl
    | ⟨1, _⟩ => rfl
    | ⟨2, _⟩ => rfl)).trans
  (shapeCast_apply M h1 (ix3 r c k) (ix2 r (col c k)) (by
    rw [Shape.rowMajor_val_two, Shape.rowMajor_val_three]
    show r.val * 1024 + (16 * c.val + k.val) = (r.val * 64 + c.val) * 16 + k.val
    omega))

/-- The whole chain of moves around the pairwise function is the similarity of M. -/
theorem sim_of_pair (M : (⟨2, ![512, 1024]⟩ : Shape).Idx → EReal)
    (h1 : (⟨2, ![512, 1024]⟩ : Shape).ShapeCasts ⟨3, ![512, 64, 16]⟩)
    (h2 : (⟨3, ![512, 64, 16]⟩ : Shape).Transposes [1, 0, 2] ⟨3, ![64, 512, 16]⟩)
    (h3 : (⟨3, ![64, 512, 1]⟩ : Shape).ShapeCasts ⟨2, ![64, 512]⟩)
    (h4 : (⟨2, ![64, 512]⟩ : Shape).Transposes [1, 0] ⟨2, ![512, 64]⟩) :
    transpose ⟨2, ![512, 64]⟩ [1, 0]
        (shapeCast ⟨2, ![64, 512]⟩ (pair (transpose ⟨3, ![64, 512, 16]⟩ [1, 0, 2] (shapeCast ⟨3, ![512, 64, 16]⟩ M h1) h2)) h3) h4
      = sim M := by
  funext i
  obtain ⟨p, c, rfl⟩ : ∃ (p : Fin 512) (c : Fin 64), i = ix2 p c := ⟨i 0, i 1, eq_ix2 i⟩
  refine (transpose_ix2_apply _ h4 p c).trans ?_
  refine (shapeCast_apply _ h3 (ix2 c p) (ix3 c p (0 : Fin 1)) (by
    rw [Shape.rowMajor_val_three, Shape.rowMajor_val_two]
    show (c.val * 512 + p.val) * 1 + 0 = c.val * 512 + p.val
    omega)).trans ?_
  unfold pair sim
  refine Finset.sum_congr rfl fun j _ => congrArg Ideal.exp (congrArg Neg.neg ?_)
  unfold l1 feat
  refine Finset.sum_congr rfl fun k _ => ?_
  show eabs (transpose ⟨3, ![64, 512, 16]⟩ [1, 0, 2] (shapeCast ⟨3, ![512, 64, 16]⟩ M h1) h2 (ix3 c p k)
      - transpose ⟨3, ![64, 512, 16]⟩ [1, 0, 2] (shapeCast ⟨3, ![512, 64, 16]⟩ M h1) h2 (ix3 c j k))
    = eabs (M (ix2 p (col c k)) - M (ix2 j (col c k)))
  rw [channelMajor_apply M h1 h2 c p k, channelMajor_apply M h1 h2 c j k]

end Cert.Relayout

end
-- ==== Proof.KVal.lean ====
/-
  The idealized kernel's result as the specification's function of the arguments.

  @main is: transpose the weights; the first region (the linear layer over blocks of 128 rows); view its result
  channel-major; the second region (one channel's similarities per grid point); drop the unit axis, transpose, and join
  x with the similarities along the columns. Each stretch of host operations is read as one term of the buffers before
  it, each region's result array is its function of the buffers at its entry, and the moves between them compose to the
  similarity of the projected matrix.
-/
import proofs.«112404_j74010876444714_1_alg».proof.Proof.KRun
import proofs.«112404_j74010876444714_1_alg».proof.Proof.LinVal
import proofs.«112404_j74010876444714_1_alg».proof.Proof.PairVal
import proofs.«112404_j74010876444714_1_alg».proof.Proof.Relayout
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo Cert.Spec

variable (m : (ℓ : Loc nD τ sig) → Buf (Elt Ideal) ℓ) (ρ : Dev nD → PrngReg)

/-- The last stretch: the result is x joined with the second region's result, unit axis dropped and transposed. -/
theorem tail_eq (c : Dev nD) :
    W5 m ρ c (Proc.devRef .tc main_v7)
      = concatenate S512x1088 1 [⟨S512x1024, W4 m ρ c (Proc.devRef .tc main_arg0)⟩,
          ⟨S512x64, transpose S512x64 [1, 0] (shapeCast S64x512 (W4 m ρ c (Proc.devRef .tc main_v4)) shapeCasts_S64x512x1_S64x512)
            transposes_S64x512_S512x64_1_0⟩] concatenates_S512x1024_S512x64_S512x1088_d1 := by
  show StableHlo.after hostOps2 (W4 m ρ c) (Proc.devRef .tc main_v7) = _
  after_results <;> rfl

/-- The middle stretch: the second region's input is the first region's result viewed channel-major. -/
theorem mid_eq (c : Dev nD) :
    V3 m ρ c main_v3
      = transpose S64x512x16 [1, 0, 2] (shapeCast S512x64x16 (W2 m ρ c (Proc.devRef .tc main_v1)) shapeCasts_S512x1024_S512x64x16)
          transposes_S512x64x16_S64x512x16_1_0_2 := by
  show StableHlo.after hostOps1 (W2 m ρ c) (Proc.devRef .tc main_v3) = _
  after_results <;> rfl

/-- The first stretch: the first region's second window is the transposed weights. -/
theorem head_eq (c : Dev nD) :
    V1 m ρ c main_v0
      = transpose S1024x1024 [1, 0] (m ((c : Thread nD τ).loc main_arg1)) transposes_S1024x1024_S1024x1024_1_0 := by
  show StableHlo.after hostOps0 (W0 m ρ c) (Proc.devRef .tc main_v0) = _
  after_results <;> rfl

/-- No host operation of the first stretch writes x or b. -/
theorem V1_arg0 (c : Dev nD) : V1 m ρ c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V1_arg2 (c : Dev nD) : V1 m ρ c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- x at the second region's exit is x as launched: the last stretch does not write it, and after it x is as launched. -/
theorem W4_arg0 (c : Dev nD) : W4 m ρ c (Proc.devRef .tc main_arg0) = m ((c : Thread nD τ).loc main_arg0) :=
  (StableHlo.after_of_forall_not_mem (b := Proc.devRef .tc main_arg0) hostOps2 (W4 m ρ c) (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans
    (W5_main_arg0 m ρ c)

/-- The result array after the run, as the specification's function of the arguments. -/
theorem result_eq (c : Dev nD) :
    W5 m ρ c (Proc.devRef .tc main_v7)
      = concatenate S512x1088 1 [⟨S512x1024, m ((c : Thread nD τ).loc main_arg0)⟩,
          ⟨S512x64, sim (lin (m ((c : Thread nD τ).loc main_arg0))
            (transpose S1024x1024 [1, 0] (m ((c : Thread nD τ).loc main_arg1)) transposes_S1024x1024_S1024x1024_1_0)
            (m ((c : Thread nD τ).loc main_arg2)))⟩] concatenates_S512x1024_S512x64_S512x1088_d1 := by
  have e4 : W4 m ρ c (Proc.devRef .tc main_v4) = pair (V3 m ρ c main_v3) :=
    (W4_arr m ρ c 1).trans (PairVal.final (V3 m ρ) c)
  have e2 : W2 m ρ c (Proc.devRef .tc main_v1) = lin (V1 m ρ c main_arg0) (V1 m ρ c main_v0) (V1 m ρ c main_arg2) :=
    (W2_arr m ρ c 3).trans (LinVal.final (V1 m ρ) c)
  rw [tail_eq, W4_arg0, e4, mid_eq, e2, head_eq, V1_arg0, V1_arg2, Cert.Relayout.sim_of_pair]

/-- The run of the idealized kernel, read: the result array at the specification's function, the arguments unchanged. -/
theorem run : θ_run defs (onTc (τ := τ) (main (F := Ideal))) ⟨m, fun _ => 0, ρ⟩ (fun r => ∀ c : Dev nD,
      r.2.mem ((c.tc : Thread nD τ).loc main_v7)
        = concatenate S512x1088 1 [⟨S512x1024, m ((c : Thread nD τ).loc main_arg0)⟩,
            ⟨S512x64, sim (lin (m ((c : Thread nD τ).loc main_arg0))
              (transpose S1024x1024 [1, 0] (m ((c : Thread nD τ).loc main_arg1)) transposes_S1024x1024_S1024x1024_1_0)
              (m ((c : Thread nD τ).loc main_arg2)))⟩] concatenates_S512x1024_S512x64_S512x1088_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩)
    (Cert.KernelIdeal.Result.run_result (F := Ideal) m ρ)

end Cert.KernelIdeal.KVal

end
-- ==== Proof.RefVal.lean ====
/-
  The reference's result is the specification's function of the arguments.

  Read one operation at a time, the reference forms m = x·wt + b (wt the transposed weights), views it as
  [512, 64, 16], broadcasts it once along a new leading axis and once along a new second axis, so that entry (a, i, c, k)
  of the difference is m[i, c, k] − m[a, c, k]; it sums |·| over k from zero, negates, exponentiates and sums over the
  leading axis a from zero. With a renamed j that is Σ_j exp (−Σ_k |m[i, 16c+k] − m[j, 16c+k]|): the leading zeros
  are neutral and nothing else differs.
-/
import proofs.«112404_j74010876444714_1_alg».proof.Proof.Gen.ReferenceIdeal.Run
import proofs.«112404_j74010876444714_1_alg».proof.Proof.Gen.ReferenceIdeal.Read
import proofs.«112404_j74010876444714_1_alg».proof.Proof.Spec
import Idealize.ShloMosaic.PureOps.Ideal.Laws
import Idealize.ShloMosaic.Lib.ValueIdx

noncomputable section

open scoped BigOperators

namespace Cert.ReferenceIdeal.RefVal

open Cert.ReferenceIdeal Cert.ReferenceIdeal.Gen Cert.ReferenceIdeal.Read
open Idealize.ShloMosaic Idealize.ShloMosaic.ValueIdx Cert.Spec

/-- The projection the reference forms is the specification's linear layer over the transposed weights. -/
theorem proj_eq (x0 : (⟨S512x1024, .f32⟩ : BufTy).Contents (Elt Ideal)) (x1 : (⟨S1024x1024, .f32⟩ : BufTy).Contents (Elt Ideal))
    (x2 : (⟨S1024, .f32⟩ : BufTy).Contents (Elt Ideal)) :
    val_main_v4 (F := Ideal) x0 x1 x2 = lin x0 (val_main_v0 (F := Ideal) x1) x2 := by
  funext i
  obtain ⟨p, q, rfl⟩ : ∃ (p : Fin 512) (q : Fin 1024), i = ix2 p q := ⟨i 0, i 1, eq_ix2 i⟩
  rw [val_main_v4_apply, val_main_v1_apply, val_main_v3_apply, val_main_v2_apply]
  have el : ∀ k : Fin 1024, lidx_main_v1 (ix2 p q) k = ix2 p k := fun k => funext fun a => by
    match a with
    | ⟨0, _⟩ => rfl
    | ⟨1, _⟩ => rfl
  have er : ∀ k : Fin 1024, ridx_main_v1 (ix2 p q) k = ix2 k q := fun k => funext fun a => by
    match a with
    | ⟨0, _⟩ => rfl
    | ⟨1, _⟩ => rfl
  have eb : idx_main_v2 (idx_main_v3 (ix2 p q)) = ix1 q := funext fun a => by
    match a with
    | ⟨0, _⟩ => rfl
  simp only [el, er, eb, Ideal.addf_def]
  rfl

/-- Where the two broadcast copies of the projection are read for entry (j, i, c, k) of the difference. -/
theorem idx_self (p j : Fin 512) (c : Fin 64) (k : Fin 16) :
    idx_main_v5 (idx_main_v6 (idx_main_v8 (idx_main_v12 (idx_main_v15 (ix2 p c) j) k))) = ix2 p (col c k) := funext fun a => Fin.ext (by
  match a with
  | ⟨0, _⟩ =>
    show ((p.val * 64 + c.val) * 16 + k.val) / 1024 = p.val
    have := p.isLt; have := c.isLt; have := k.isLt; omega
  | ⟨1, _⟩ =>
    show ((p.val * 64 + c.val) * 16 + k.val) % 1024 = 16 * c.val + k.val
    have := p.isLt; have := c.isLt; have := k.isLt; omega)

theorem idx_other (p j : Fin 512) (c : Fin 64) (k : Fin 16) :
    idx_main_v5 (idx_main_v7 (idx_main_v9 (idx_main_v12 (idx_main_v15 (ix2 p c) j) k))) = ix2 j (col c k) := funext fun a => Fin.ext (by
  match a with
  | ⟨0, _⟩ =>
    show ((j.val * 64 + c.val) * 16 + k.val) / 1024 = j.val
    have := j.isLt; have := c.isLt; have := k.isLt; omega
  | ⟨1, _⟩ =>
    show ((j.val * 64 + c.val) * 16 + k.val) % 1024 = 16 * c.val + k.val
    have := j.isLt; have := c.isLt; have := k.isLt; omega)

/-- The similarities the reference forms are the specification's, of its own projection. -/
theorem sim_eq (x0 : (⟨S512x1024, .f32⟩ : BufTy).Contents (Elt Ideal)) (x1 : (⟨S1024x1024, .f32⟩ : BufTy).Contents (Elt Ideal))
    (x2 : (⟨S1024, .f32⟩ : BufTy).Contents (Elt Ideal)) :
    val_main_v15 (F := Ideal) x0 x1 x2 = sim (val_main_v4 (F := Ideal) x0 x1 x2) := by
  funext i
  obtain ⟨p, c, rfl⟩ : ∃ (p : Fin 512) (c : Fin 64), i = ix2 p c := ⟨i 0, i 1, eq_ix2 i⟩
  rw [val_main_v15_apply]
  unfold sim
  simp only [val_main_cst_0_apply, Ideal.ofBits_def, Ideal.ofBits_zero_f32, zero_add]
  refine Finset.sum_congr rfl fun j _ => ?_
  rw [val_main_v14_apply, val_main_v13_apply, val_main_v12_apply]
  simp only [val_main_cst_apply, Ideal.ofBits_def, Ideal.ofBits_zero_f32, zero_add, Ideal.hostUnary_exp_def,
    Ideal.hostNegf_def, Ideal.negf_def]
  refine congrArg Ideal.exp (congrArg Neg.neg ?_)
  unfold l1 feat
  refine Finset.sum_congr rfl fun k _ => ?_
  simp only [val_main_v11_apply, val_main_v10_apply, val_main_v8_apply, val_main_v6_apply, val_main_v9_apply,
    val_main_v7_apply, val_main_v5_apply, idx_self, idx_other]
  rfl

/-- The reference's whole result as the specification's function of the three arguments. -/
theorem result_eq (x0 : (⟨S512x1024, .f32⟩ : BufTy).Contents (Elt Ideal)) (x1 : (⟨S1024x1024, .f32⟩ : BufTy).Contents (Elt Ideal))
    (x2 : (⟨S1024, .f32⟩ : BufTy).Contents (Elt Ideal)) :
    val_main_v16 (F := Ideal) x0 x1 x2
      = concatenate S512x1088 1 [⟨S512x1024, x0⟩, ⟨S512x64, sim (lin x0 (transpose S1024x1024 [1, 0] x1 transposes_S1024x1024_S1024x1024_1_0) x2)⟩]
          concatenates_S512x1024_S512x64_S512x1088_d1 := by
  unfold val_main_v16
  rw [sim_eq, proj_eq]
  rfl

end Cert.ReferenceIdeal.RefVal

end
-- ==== Proof.lean ====
/-
  The proof of `Cert.Claim`: the three programs run to the end without a fault and leave their arguments alone, the
  idealized kernel is the kernel's own text read on the extended reals (no operation was rewritten), and the idealized
  kernel and the idealized reference end with equal results.

  Both compute  out = [ x | o ]  with  m = x · Wᵀ + b  viewed as 64 channels of 16 features and
  o[i, c] = Σ_j exp (−Σ_k |m[i, 16c+k] − m[j, 16c+k]|).  The kernel does the linear layer in a first region over blocks of
  128 rows (the format change before its product is the identity on the extended reals, and the product accumulates into
  zero), lays the result out channel-major, and in a second region handles one channel per grid point, adding the sixteen
  |·| terms one after the other onto zero and summing exp (0 − ·) along rows; the reference broadcasts m against itself,
  reduces over k and then over j, each from zero. On the extended reals addition is commutative and associative,
  0 + a = a and 0 − a = −a, so the two are one function of (x, W, b); no finiteness of the inputs is used.
-/
import proofs.«112404_j74010876444714_1_alg».proof.Defs
import proofs.«112404_j74010876444714_1_alg».proof.Proof.Gen.Kernel
import proofs.«112404_j74010876444714_1_alg».proof.Proof.Gen.Kernel.Skeleton
import proofs.«112404_j74010876444714_1_alg».proof.Proof.Gen.Kernel.Launch
import proofs.«112404_j74010876444714_1_alg».proof.Proof.Gen.Kernel.Points
import proofs.«112404_j74010876444714_1_alg».proof.Proof.Gen.Kernel.Frame
import proofs.«112404_j74010876444714_1_alg».proof.Proof.Gen.KernelIdeal
import proofs.«112404_j74010876444714_1_alg».proof.Proof.Gen.KernelIdeal.Skeleton
import proofs.«112404_j74010876444714_1_alg».proof.Proof.Gen.KernelIdeal.Launch
import proofs.«112404_j74010876444714_1_alg».proof.Proof.Gen.KernelIdeal.Points
import proofs.«112404_j74010876444714_1_alg».proof.Proof.Gen.KernelIdeal.Frame
import proofs.«112404_j74010876444714_1_alg».proof.Proof.Gen.ReferenceIdeal
import proofs.«112404_j74010876444714_1_alg».proof.Proof.Gen.ReferenceIdeal.Run
import proofs.«112404_j74010876444714_1_alg».proof.Proof.Gen.ReferenceIdeal.Read
import proofs.«112404_j74010876444714_1_alg».proof.Proof.Gen.Pre_finite_inputs
import proofs.«112404_j74010876444714_1_alg».proof.Proof.KVal
import proofs.«112404_j74010876444714_1_alg».proof.Proof.RefVal
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on (x, W, b) both idealized programs end at the specification's function of them. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefVal.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
